-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S800000 32) (main_arg6 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 4294917296#32
  let main_v24 : IVec S800000 32 := broadcastInDim S800000 ![] bcast_S_S800000 main_c_8
  let main_v25 : IVec S800000 1 := cmpi .sge main_arg1 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v23 main_v26
  let main_c_10 : IVec S_ 32 := constantI S_ 32 50000#32
  let main_v28 : IVec S800000 32 := broadcastInDim S800000 ![] bcast_S_S800000 main_c_10
  let main_v29 : IVec S800000 1 := cmpi .slt main_arg1 main_v28
  let main_c_11 : IVec S_ 1 := constantI S_ 1 1#1
  let main_v30 : IVec S_ 1 := (fun x v => Host.reduce IntOp.andi x v reducesTo_S800000_S_d0 h_S_) main_v29 main_c_11
  let main_v31 : IVec S_ 1 := andi main_v27 main_v30
  main_v31

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64 .f32) (main_arg6 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩
abbrev S10000x64 : Shape := ⟨2, ![10000, 64]⟩

abbrev nBuf : Space → Nat
  | .hbm => 40
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x64, .f32⟩
  | .hbm, ⟨26, _⟩ => ⟨S800000x64, .i1⟩
  | .hbm, ⟨27, _⟩ => ⟨S_, .f32⟩
  | .hbm, ⟨28, _⟩ => ⟨S800000x64, .f32⟩
  | .hbm, ⟨29, _⟩ => ⟨S800000x64, .f32⟩
  | .hbm, ⟨30, _⟩ => ⟨S800000x1, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S64x64, .f32⟩
  | .hbm, ⟨38, _⟩ => ⟨S1x64, .f32⟩
  | .hbm, ⟨39, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x1, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S64x64, .f32⟩
  | .hbm, ⟨28, _⟩ => ⟨S50000x64, .f32⟩
  | .hbm, ⟨29, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The layer both programs compute, as one function of five arrays over the extended reals.

  A graph-convolution layer with no normalisation: with agg the per-node weighted sum of its neighbours' features
  (agg is produced by the same gather, product and scatter-add on both sides and stays an opaque array here),

      out (r, c) = ( ∑ k, agg (r, k) · wn (k, c) + b c ) + ∑ k, feat (r, k) · wsT (k, c),

  for r over the 50000 nodes and c, k over the 64 features; wsT is the self-weight already transposed (both programs
  transpose it before the product, so it too stays opaque). The sums are finite sums of extended reals, and the
  grouping (neighbour product plus bias first, the self product added last) is the one both programs use, so no law of
  arithmetic is needed to join the two sides: only the reading of each product as this sum.
-/
import Idealize.ShloMosaic.PureOps.Ideal
import Idealize.ShloMosaic.Lib.ValueIdx

noncomputable section

namespace Cert.GraphConv

open Idealize.ShloMosaic Idealize.ShloMosaic.ValueIdx

/-- The layer's output at node r and feature c. -/
def layer (agg feat : (⟨2, ![50000, 64]⟩ : Shape).Idx → EReal) (wn : (⟨2, ![64, 64]⟩ : Shape).Idx → EReal)
    (b : Fin 64 → EReal) (wsT : (⟨2, ![64, 64]⟩ : Shape).Idx → EReal) :
    (⟨2, ![50000, 64]⟩ : Shape).Idx → EReal :=
  fun i => (∑ k : Fin 64, agg (ix2 (i 0) k) * wn (ix2 k (i 1)) + b (i 1))
    + ∑ k : Fin 64, feat (ix2 (i 0) k) * wsT (ix2 k (i 1))

theorem layer_ix2 (agg feat : (⟨2, ![50000, 64]⟩ : Shape).Idx → EReal) (wn : (⟨2, ![64, 64]⟩ : Shape).Idx → EReal)
    (b : Fin 64 → EReal) (wsT : (⟨2, ![64, 64]⟩ : Shape).Idx → EReal) (r : Fin 50000) (c : Fin 64) :
    layer agg feat wn b wsT (ix2 r c)
      = (∑ k : Fin 64, agg (ix2 r k) * wn (ix2 k c) + b c) + ∑ k : Fin 64, feat (ix2 r k) * wsT (ix2 k c) := rfl

end Cert.GraphConv

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.BlockValue.lean ====
/-
  The kernel region's output array, as the layer of the arrays the region finds.

  The region runs five grid points; point t stages rows [10000·t, 10000·t + 10000) of the aggregated array and of the
  feature array, the whole of both 64 × 64 weights and the one bias row, and writes back the same rows of the output.
  Its body computes, for row p and column q of the block,

      ( ∑ k, aggBlock (p, k) · wn (k, q) + bias (0, q) ) + ∑ k, featBlock (p, k) · wsT (k, q)

  (two matrix products into a zero accumulator, a change of float format being the identity on extended reals). Row p
  of point t's block is row 10000·t + p of the arrays, so what point t writes back is block t of the layer of the whole
  arrays; the five blocks cover the 50000 rows, so the output array ends as that layer.
-/
import proofs.«418360_j29300266893372_3_alg».proof.Proof.Gen.KernelIdeal.Value
import proofs.«418360_j29300266893372_3_alg».proof.Proof.Spec
import proofs.«418360_j29300266893372_3_alg».proof.Proof.LibPlainDot
import Idealize.ShloMosaic.Lib.Pipeline.Value
import Idealize.ShloMosaic.Lib.ValueIdx
import Idealize.ShloMosaic.PureOps.Ideal.Laws

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one entry of the block -/

theorem hz : (![0, 0] : Fin 2 → Nat) = fun _ => 0 := funext fun a => by fin_cases a <;> rfl

/-- The bias row broadcast down the block's rows, read at (p, q): the row's entry q. -/
theorem bias_row (b : FVec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

/-- One product of the body: rows of a block times a 64 × 64 weight, into the zero accumulator. -/
theorem product_at (a : FVec Ideal S10000x64 .f32) (w : FVec Ideal S64x64 .f32) (p : Fin 10000) (q : Fin 64) :
    FloatOps.matmul (F := Ideal) dot_S10000x64_S64x64_S10000x64_1_0_0_1_n_n none (truncf .bf16 a bitsLt_bf16_f32) (truncf .bf16 w bitsLt_bf16_f32)
        (constant S10000x64 .f32 0x00000000#32) (ix2 p q)
      = ∑ k : Fin 64, a (ix2 p k) * w (ix2 k q) :=
  Cert.Lib.PlainDot.matmul_plain_zero_ix2 10000 64 64 none (truncf .bf16 a bitsLt_bf16_f32) (truncf .bf16 w bitsLt_bf16_f32) p q

/-- The body's stored value at row p, column q of the block. -/
theorem body_at (x0 x1 : FVec Ideal S10000x64 .f32) (x2 x4 : FVec Ideal S64x64 .f32) (x3 : FVec Ideal S1x64 .f32)
    (p : Fin 10000) (q : Fin 64) :
    k0_pay1 (F := Ideal) x0 x1 x2 x4 x3 (ix2 p q)
      = (∑ k : Fin 64, x0 (ix2 p k) * x2 (ix2 k q) + x3 (ix2 (0 : Fin 1) q)) + ∑ k : Fin 64, x1 (ix2 p k) * x4 (ix2 k q) := by
  unfold k0_pay1
  simp only [shapeCast_self]
  show (FloatOps.matmul (F := Ideal) _ none _ _ _ (ix2 p q) + broadcastTo S10000x64 x3 broadcasts_S1x64_S10000x64 (ix2 p q))
      + FloatOps.matmul (F := Ideal) _ none _ _ _ (ix2 p q) = _
  rw [bias_row, product_at, product_at]

/-! ## Where a block's entry lies in its array -/

/-- The printed index maps, decided over the five points: the row blocks of the aggregate and the features move with
    the output's, the weights and the bias stay at block (0, 0), and the output's row block is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 5 := lt_of_lt_of_eq t.isLt N_0

/-- Row p of point t's block is this row of the arrays. -/
def rowOf (t : Fin cfg0.N) (p : Fin 10000) : Fin 50000 :=
  ⟨t.val * 10000 + p.val, by have := point_lt t; have := p.isLt; omega⟩

theorem emb_out (t : Fin cfg0.N) (p : Fin 10000) (q : Fin 64) :
    ((cfg0.win 5).blk t).view.emb (ix2 p q) = ix2 (rowOf t p) q := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

theorem emb_agg (t : Fin cfg0.N) (p : Fin 10000) (k : Fin 64) :
    ((cfg0.win 0).blk t).view.emb (ix2 p k) = ix2 (rowOf t p) k := by
  obtain ⟨a0, a1, -, -, -, -, -, -, -, -, e0, e1⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem emb_feat (t : Fin cfg0.N) (p : Fin 10000) (k : Fin 64) :
    ((cfg0.win 1).blk t).view.emb (ix2 p k) = ix2 (rowOf t p) k := by
  obtain ⟨-, -, a0, a1, -, -, -, -, -, -, e0, e1⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

theorem emb_wn (t : Fin cfg0.N) (k q : Fin 64) : ((cfg0.win 2).blk t).view.emb (ix2 k q) = ix2 k q := by
  obtain ⟨-, -, -, -, a0, a1, -, -, -, -, -, -⟩ := idx_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb_bias (t : Fin cfg0.N) (q : Fin 64) : ((cfg0.win 3).blk t).view.emb (ix2 (0 : Fin 1) q) = ix2 (0 : Fin 1) q := by
  obtain ⟨-, -, -, -, -, -, a0, a1, -, -, -, -⟩ := idx_facts t
  funext a; apply Fin.ext
  match a with
  | ⟨0, _⟩ => show win0_3.index t (0 : Fin 2) * 1 + 1 * 0 = 0; omega
  | ⟨1, _⟩ => show win0_3.index t (1 : Fin 2) * 64 + 1 * q.val = q.val; omega

theorem emb_wsT (t : Fin cfg0.N) (k q : Fin 64) : ((cfg0.win 4).blk t).view.emb (ix2 k q) = ix2 k q := by
  obtain ⟨-, -, -, -, -, -, -, -, a0, a1, -, -⟩ := idx_facts t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- A staged block of any array, read at an entry, is the array read at the entry's place. -/
theorem read_agg (X : FVec Ideal S50000x64 .f32) (t : Fin cfg0.N) (p : Fin 10000) (k : Fin 64) :
    ((cfg0.win 0).blk t).view.read (Elt Ideal) X (ix2 p k) = X (ix2 (rowOf t p) k) := by
  show X (((cfg0.win 0).blk t).view.emb (ix2 p k)) = _
  rw [emb_agg]
theorem read_feat (X : FVec Ideal S50000x64 .f32) (t : Fin cfg0.N) (p : Fin 10000) (k : Fin 64) :
    ((cfg0.win 1).blk t).view.read (Elt Ideal) X (ix2 p k) = X (ix2 (rowOf t p) k) := by
  show X (((cfg0.win 1).blk t).view.emb (ix2 p k)) = _
  rw [emb_feat]
theorem read_wn (X : FVec Ideal S64x64 .f32) (t : Fin cfg0.N) (k q : Fin 64) :
    ((cfg0.win 2).blk t).view.read (Elt Ideal) X (ix2 k q) = X (ix2 k q) := by
  show X (((cfg0.win 2).blk t).view.emb (ix2 k q)) = _
  rw [emb_wn]
theorem read_bias (X : FVec Ideal S1x64 .f32) (t : Fin cfg0.N) (q : Fin 64) :
    ((cfg0.win 3).blk t).view.read (Elt Ideal) X (ix2 (0 : Fin 1) q) = X (ix2 (0 : Fin 1) q) := by
  show X (((cfg0.win 3).blk t).view.emb (ix2 (0 : Fin 1) q)) = _
  rw [emb_bias]
theorem read_wsT (X : FVec Ideal S64x64 .f32) (t : Fin cfg0.N) (k q : Fin 64) :
    ((cfg0.win 4).blk t).view.read (Elt Ideal) X (ix2 k q) = X (ix2 k q) := by
  show X (((cfg0.win 4).blk t).view.emb (ix2 k q)) = _
  rw [emb_wsT]

/-! ## What a point writes back, and the whole array -/

/-- For ANY five arrays: the body's result on their blocks at point t is block t of their layer. -/
theorem block_eq (X0 X1 : FVec Ideal S50000x64 .f32) (X2 : FVec Ideal S64x64 .f32) (X3 : FVec Ideal S1x64 .f32)
    (X4 : FVec Ideal S64x64 .f32) (t : Fin cfg0.N) :
    (cfg0.win 5).cut (grid0.coords t)
        (k0_pay1 (F := Ideal) (((cfg0.win 0).blk t).view.read (Elt Ideal) X0) (((cfg0.win 1).blk t).view.read (Elt Ideal) X1)
          (((cfg0.win 2).blk t).view.read (Elt Ideal) X2) (((cfg0.win 4).blk t).view.read (Elt Ideal) X4)
          (((cfg0.win 3).blk t).view.read (Elt Ideal) X3))
      = ((cfg0.win 5).blk t).view.read (Elt Ideal) (Cert.GraphConv.layer X0 X1 X2 (fun q => X3 (ix2 (0 : Fin 1) q)) X4) := by
  funext j
  obtain ⟨p, q, rfl⟩ : ∃ (p : Fin 10000) (q : Fin 64), j = ix2 p q := ⟨j 0, j 1, eq_ix2 (n0 := 10000) (n1 := 64) j⟩
  show k0_pay1 (F := Ideal) (((cfg0.win 0).blk t).view.read (Elt Ideal) X0) (((cfg0.win 1).blk t).view.read (Elt Ideal) X1)
          (((cfg0.win 2).blk t).view.read (Elt Ideal) X2) (((cfg0.win 4).blk t).view.read (Elt Ideal) X4)
          (((cfg0.win 3).blk t).view.read (Elt Ideal) X3) (ix2 p q)
    = Cert.GraphConv.layer X0 X1 X2 (fun q => X3 (ix2 (0 : Fin 1) q)) X4 (((cfg0.win 5).blk t).view.emb (ix2 p q))
  rw [emb_out t p q, Cert.GraphConv.layer_ix2]
  refine (body_at _ _ _ _ _ p q).trans ?_
  exact congrArg₂ (fun a b : EReal => a + b)
    (congrArg₂ (fun a b : EReal => a + b)
      (Finset.sum_congr rfl fun k _ => congrArg₂ (fun a b : EReal => a * b) (read_agg X0 t p k) (read_wn X2 t k q))
      (read_bias X3 t q))
    (Finset.sum_congr rfl fun k _ => congrArg₂ (fun a b : EReal => a * b) (read_feat X1 t p k) (read_wsT X4 t k q))

variable (m : (ℓ : Loc nD τ sig) → Buf (Elt Ideal) ℓ)

/-- The layer of the arrays the region finds in its five input windows (the bias read off its one row). -/
def G (c : Dev nD) : FVec Ideal S50000x64 .f32 :=
  Cert.GraphConv.layer (V m c (Pipeline.arrRef spec0 (0 : Fin cfg0.W))) (V m c (Pipeline.arrRef spec0 (1 : Fin cfg0.W)))
    (V m c (Pipeline.arrRef spec0 (2 : Fin cfg0.W)))
    (fun q => (V m c (Pipeline.arrRef spec0 (3 : Fin cfg0.W)) : FVec Ideal S1x64 .f32) (ix2 (0 : Fin 1) q))
    (V m c (Pipeline.arrRef spec0 (4 : Fin cfg0.W)))

/-- Point t writes back block t of that layer. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz]
  simp only [View.ld_unit_zero (S := S10000x64) hz, View.ld_unit_zero (S := S64x64) hz, View.ld_unit_zero (S := S1x64) hz]
  unfold G iblk
  generalize V m c (Pipeline.arrRef spec0 (0 : Fin cfg0.W)) = X0
  generalize V m c (Pipeline.arrRef spec0 (1 : Fin cfg0.W)) = X1
  generalize V m c (Pipeline.arrRef spec0 (2 : Fin cfg0.W)) = X2
  generalize V m c (Pipeline.arrRef spec0 (3 : Fin cfg0.W)) = X3
  generalize V m c (Pipeline.arrRef spec0 (4 : Fin cfg0.W)) = X4
  exact block_eq X0 X1 X2 X3 X4 t

/-- An index of the output array is in point t's block iff each coordinate is in the block's range on its axis. -/
theorem mem_blk (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v9).slice (win0_5.rect t)).set ↔ _
  rw [View.set_slice_whole, Rect.mem_set_unit]
  exact Iff.rfl

/-- Every row of the output lies in the block of the point numbered by its ten-thousands. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 10000 < cfg0.N := lt_of_lt_of_eq (by omega : (i 0).val / 10000 < 5) N_0.symm
  obtain ⟨-, -, -, -, -, -, -, -, -, -, e0, e1⟩ := idx_facts ⟨(i 0).val / 10000, hN⟩
  refine ⟨⟨(i 0).val / 10000, hN⟩, flush0_5 _, ?_⟩
  rw [mem_blk]
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    have e0' : win0_5.index ⟨(i 0).val / 10000, hN⟩ (0 : Fin 2) = (i 0).val / 10000 := e0
    omega
  | ⟨1, _⟩ =>
    show win0_5.index ⟨(i 0).val / 10000, hN⟩ (1 : Fin 2) * 64 ≤ (i 1).val ∧ (i 1).val < win0_5.index ⟨(i 0).val / 10000, hN⟩ (1 : Fin 2) * 64 + 64
    omega

/-- The output array after the region is the layer of the arrays the region found. -/
theorem final (c : Dev nD) : (dats m 0 c).arrAt 5 cfg0.N = G m c :=
  (dats m 0 c).arrAt_eq_of_cover 5 (G m c) (fun t _ => flushed_eq m c t) cover

end Cert.KernelIdeal.Whole

end
-- ==== Proof.Words.lean ====
/-
  Node indices as words: Python's reading of an index in [-N, N), and an all-true mask.

  An index word s with -50000 ≤ s < 50000 (read signed) is wrapped as Python wraps it: s + 50000 when s is negative,
  s otherwise. The wrapped word lies in [0, 49999], so the test "0 ≤ wrapped ≤ 49999" that guards an out-of-range
  fill is true at every edge. A conjunction (a reduction by `and` from true) of bits that are all true is true.
-/
import Idealize.ShloMosaic.Lib.Affine
import Idealize.ShloMosaic.Lib.ReduceAll
import Idealize.ShloMosaic.PureOps.Reduce

namespace Cert.GraphConv.Words

open Idealize.ShloMosaic

/-- Python's wrap of a possibly negative index into an axis of 50000. -/
def wrap (s : BitVec 32) : BitVec 32 :=
  Scalar.select (IntOp.cmpi .slt s 0#32) (IntOp.addi s 50000#32) s

theorem toInt_zero32 : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

/-- The wrapped index, read signed, lies in [0, 49999]. -/
theorem wrap_range (s : BitVec 32) (hlo : -50000 ≤ s.toInt) (hhi : s.toInt < 50000) :
    0 ≤ (wrap s).toInt ∧ (wrap s).toInt ≤ 49999 := by
  unfold wrap Scalar.select
  split
  · rename_i hc
    have hneg : s.toInt < 0 := by
      have := IntOp.cmpi_slt.1 hc
      rwa [toInt_zero32] at this
    have e : (IntOp.addi s 50000#32).toInt = s.toInt + 50000 := by
      unfold IntOp.addi
      rw [BitVec.toInt_add, toInt_50000]
      exact Int.bmod_eq_of_le (by omega) (by omega)
    rw [e]; omega
  · rename_i hc
    have hnn : ¬ s.toInt < 0 := fun h => hc (IntOp.cmpi_slt.2 (by rw [toInt_zero32]; exact h))
    omega

/-- So the guard "0 ≤ wrapped and wrapped ≤ 49999" is the true bit. -/
theorem guard_wrap (s : BitVec 32) (hlo : -50000 ≤ s.toInt) (hhi : s.toInt < 50000) :
    IntOp.andi (IntOp.cmpi .sge (wrap s) 0#32) (IntOp.cmpi .sle (wrap s) 49999#32) = 1#1 := by
  obtain ⟨h0, h1⟩ := wrap_range s hlo hhi
  exact IntOp.andi_eq_one.2 ⟨IntOp.cmpi_sge.2 (by rw [toInt_zero32]; exact h0), IntOp.cmpi_sle.2 (by rw [toInt_49999]; exact h1)⟩

/-- A left fold by `and` from the true bit over true bits is the true bit. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by `and` from the constant true of an array of true bits is true at every result index. -/
theorem reduce_andi_one {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one x hx _

end Cert.GraphConv.Words
-- ==== Proof.Entry.lean ====
/-
  The host's work before the kernel region, as functions of the argument arrays, and its out-of-range fill.

  Before the region the host gathers a feature row per edge (`jnp.take`: the source index wrapped as Python wraps a
  negative one, and a row whose wrapped index is outside [0, 49999] replaced by a fill value), scales each gathered row
  by its edge weight and adds the rows into their destination nodes. When every source index lies in [-50000, 50000)
  the in-range test is true at every edge, so the fill never applies: the gathered rows are the plain gather at the
  wrapped indices.
-/
import proofs.«418360_j29300266893372_3_alg».proof.Proof.Gen.KernelIdeal
import proofs.«418360_j29300266893372_3_alg».proof.Proof.Words
import Idealize.ShloMosaic.PureOps.Ideal

noncomputable section

namespace Cert.KernelIdeal.Entry

open Cert.KernelIdeal Cert.KernelIdeal.Gen Idealize.ShloMosaic
open Cert.GraphConv.Words

/-- The source words wrapped as Python wraps a negative index, as a column. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per entry of the column: the two compares "0 ≤ wrapped" and "wrapped ≤ 49999", conjoined. -/
def inRangeCol (src : IVec S800000 32) : IVec S800000x1 1 :=
  andi (cmpi .sge (srcCol src) (broadcastInDim S800000x1 ![] bcast_S_S800000x1 (constantI S_ 32 0#32)))
    (cmpi .sle (srcCol src) (broadcastInDim S800000x1 ![0, 1] bcast_S1x1_S800000x1_0_1
      (broadcastInDim S1x1 ![1] bcast_S1_S1x1_1 (constantI S1 32 49999#32))))

/-- Per edge: is the wrapped index inside [0, 49999]? (The column's one entry per edge, reduced by `and`.) -/
def inRange (src : IVec S800000 32) : IVec S800000 1 :=
  Host.reduce IntOp.andi (inRangeCol src) (constantI S_ 1 1#1) reducesTo_S800000x1_S800000_d1 h_S_

/-- The plain gather of feature rows at the wrapped indices. -/
def rows (feat : FVec Ideal S50000x64 .f32) (src : IVec S800000 32) : FVec Ideal S800000x64 .f32 :=
  Host.gather gather_S50000x64_S800000x1_S800000x64_1_0_n_n_0_1_164 feat (srcCol src)

/-- The gather with the out-of-range fill. -/
def rowsFilled (feat : FVec Ideal S50000x64 .f32) (src : IVec S800000 32) : FVec Ideal S800000x64 .f32 :=
  select (broadcastInDim S800000x64 ![0] bcast_S800000_S800000x64_0 (inRange src)) (rows feat src)
    (broadcastInDim S800000x64 ![] bcast_S_S800000x64 (constant S_ .f32 0x7FC00000#32))

/-- Rows scaled by their edge weights and added into their destination nodes. -/
def aggOf (r : FVec Ideal S800000x64 .f32) (dst : IVec S800000 32) (w : FVec Ideal S800000 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf r (broadcastInDim S800000x64 ![0, 1] bcast_S800000x1_S800000x64_0_1
      (broadcastInDim S800000x1 ![0] bcast_S800000_S800000x1_0 w)))

/-! ## The in-range test is true at every edge -/

/-- At each entry of the column the wrapped word is the wrap of some edge's source word. -/
theorem srcCol_apply (src : IVec S800000 32) (i : S800000x1.Idx) : ∃ e, srcCol src i = wrap (src e) := ⟨_, rfl⟩

/-- At each entry of the column the two compares of the wrapped word are both true. -/
theorem inRangeCol_true (src : IVec S800000 32) (hs : ∀ e, -50000 ≤ (src e).toInt ∧ (src e).toInt < 50000) (i : S800000x1.Idx) :
    inRangeCol src i = 1#1 := by
  show IntOp.andi (IntOp.cmpi .sge (srcCol src i) 0#32) (IntOp.cmpi .sle (srcCol src i) 49999#32) = 1#1
  obtain ⟨e, he⟩ := srcCol_apply src i
  rw [he]
  exact guard_wrap _ (hs e).1 (hs e).2

theorem inRange_true (src : IVec S800000 32) (hs : ∀ e, -50000 ≤ (src e).toInt ∧ (src e).toInt < 50000) (e : S800000.Idx) :
    inRange src e = 1#1 :=
  reduce_andi_one (inRangeCol src) (inRangeCol_true src hs) reducesTo_S800000x1_S800000_d1 h_S_ e

/-- So the fill never applies. -/
theorem rowsFilled_eq (feat : FVec Ideal S50000x64 .f32) (src : IVec S800000 32)
    (hs : ∀ e, -50000 ≤ (src e).toInt ∧ (src e).toInt < 50000) : rowsFilled feat src = rows feat src := by
  funext j
  have hM : broadcastInDim S800000x64 ![0] bcast_S800000_S800000x64_0 (inRange src) j = 1#1 := by
    unfold broadcastInDim
    exact inRange_true src hs _
  unfold rowsFilled Idealize.ShloMosaic.select
  dsimp only
  rw [hM]
  exact if_pos rfl

end Cert.KernelIdeal.Entry

end
-- ==== Proof.EntryArrays.lean ====
/-
  What the one kernel region finds in the arrays the host computed before it.

  The region's first window stages the aggregated array: the scatter-add of the gathered, weight-scaled feature rows
  (with the out-of-range fill of the gather; without it once every source index is in range). Its fourth and fifth
  windows stage the bias as a one-row matrix and the self weight transposed. Each is the host's composition of the
  argument arrays as the launch memory holds them.
-/
import proofs.«418360_j29300266893372_3_alg».proof.Proof.Gen.KernelIdeal.Value
import proofs.«418360_j29300266893372_3_alg».proof.Proof.Entry
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

/-- Contents carried to a buffer's own type and back are the contents. -/
theorem ofBuf_toBuf {Val : EltTy → Type} {T : BufTy} (x : TRef sig T) (v : T.Contents Val) : x.ofBuf (x.toBuf v) = v := by
  obtain ⟨r, h, d, u⟩ := x
  subst h
  rfl

/-- At these three literal buffers the carried type is the buffer's own, so the transport is the identity. -/
theorem toBuf_rows (h d u) (v : (⟨S800000x64, .f32⟩ : BufTy).Contents (Elt Ideal)) :
    (TRef.of main_v0 h d u : TRef sig ⟨S800000x64, .f32⟩).toBuf v = v := rfl
theorem ofBuf_src (h d u) (v : (⟨S800000, .i32⟩ : BufTy).Contents (Elt Ideal)) :
    (TRef.of main_arg1 h d u : TRef sig ⟨S800000, .i32⟩).ofBuf v = v := rfl
theorem ofBuf_feat (h d u) (v : (⟨S50000x64, .f32⟩ : BufTy).Contents (Elt Ideal)) :
    (TRef.of main_arg0 h d u : TRef sig ⟨S50000x64, .f32⟩).ofBuf v = v := rfl

variable (m : (ℓ : Loc nD τ sig) → Buf (Elt Ideal) ℓ)

set_option maxHeartbeats 4000000 in
/-- The aggregated array the region's first window stages, as the host computed it. -/
theorem V_agg_filled (c : Dev nD) :
    (V m c main_v6 : FVec Ideal S50000x64 .f32)
      = aggOf (rowsFilled (m ((c : Thread nD τ).loc main_arg0)) (m ((c : Thread nD τ).loc main_arg1)))
          (m ((c : Thread nD τ).loc main_arg2)) (m ((c : Thread nD τ).loc main_arg3)) := by
  dsimp only [Gen.V]
  simp only [Gen.hostOps0, Gen.hostOps0_1, List.flatten_cons, List.flatten_nil, List.append_nil, List.cons_append, List.nil_append]
  after_results_simp
  simp only [ofBuf_toBuf, toBuf_rows, ofBuf_src, ofBuf_feat]
  unfold aggOf rowsFilled rows inRange inRangeCol srcCol
  rfl

/-- … with every source index in range, the plain gather's rows. -/
theorem V_agg (c : Dev nD) (hs : ∀ e, -50000 ≤ (m ((c : Thread nD τ).loc main_arg1) e).toInt ∧ (m ((c : Thread nD τ).loc main_arg1) e).toInt < 50000) :
    (V m c main_v6 : FVec Ideal S50000x64 .f32)
      = aggOf (rows (m ((c : Thread nD τ).loc main_arg0)) (m ((c : Thread nD τ).loc main_arg1)))
          (m ((c : Thread nD τ).loc main_arg2)) (m ((c : Thread nD τ).loc main_arg3)) := by
  rw [V_agg_filled, rowsFilled_eq _ _ hs]

/-- The self weight, transposed by the host. -/
theorem V_wsT (c : Dev nD) :
    (V m c main_v7 : FVec Ideal S64x64 .f32) = transpose S64x64 [1, 0] (m ((c : Thread nD τ).loc main_arg6)) transposes_S64x64_S64x64_1_0 := by
  dsimp only [Gen.V]
  simp only [Gen.hostOps0, Gen.hostOps0_1, List.flatten_cons, List.flatten_nil, List.append_nil, List.cons_append, List.nil_append]
  after_results_simp
  try rfl

/-- The bias as a one-row matrix. -/
theorem V_bias (c : Dev nD) :
    (V m c main_v8 : FVec Ideal S1x64 .f32) = shapeCast S1x64 (m ((c : Thread nD τ).loc main_arg5)) shapeCasts_S64_S1x64 := by
  dsimp only [Gen.V]
  simp only [Gen.hostOps0, Gen.hostOps0_1, List.flatten_cons, List.flatten_nil, List.append_nil, List.cons_append, List.nil_append]
  after_results_simp
  try rfl

end Cert.KernelIdeal.Entry

end
-- ==== Proof.KernelRun.lean ====
/-
  The kernel program's run, with its output array named as the layer of the ARGUMENT arrays.

  The region's output is the layer of the arrays the region finds; those are, by the host's work before the region, the
  aggregated array (the plain gather's rows once every source index is in [-50000, 50000)), the features, the neighbour
  weight, the bias given a leading unit axis and the transposed self weight. A one-row matrix read at (0, q) is the bias
  vector's entry q.
-/
import proofs.«418360_j29300266893372_3_alg».proof.Proof.BlockValue
import proofs.«418360_j29300266893372_3_alg».proof.Proof.EntryArrays

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer of the argument arrays as the launch memory holds them. -/
def layerOfArgs (c : Dev nD) : FVec Ideal S50000x64 .f32 :=
  Cert.GraphConv.layer
    (Entry.aggOf (Entry.rows (m ((c : Thread nD τ).loc main_arg0)) (m ((c : Thread nD τ).loc main_arg1)))
      (m ((c : Thread nD τ).loc main_arg2)) (m ((c : Thread nD τ).loc main_arg3)))
    (m ((c : Thread nD τ).loc main_arg0)) (m ((c : Thread nD τ).loc main_arg4))
    (fun q => (m ((c : Thread nD τ).loc main_arg5) : FVec Ideal S64 .f32) (ix1 q))
    (transpose S64x64 [1, 0] (m ((c : Thread nD τ).loc main_arg6)) transposes_S64x64_S64x64_1_0)

/-- The bias vector given a leading unit axis, read at (0, q), is its entry q. -/
theorem bias_entry (b : FVec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_one, Shape.rowMajor_val_two]
    show q.val = 0 * 64 + q.val
    omega)

/-- The layer of what the region finds is the layer of the arguments, once every source index is in range. -/
theorem G_eq (c : Dev nD)
    (hs : ∀ e, -50000 ≤ (m ((c : Thread nD τ).loc main_arg1) e).toInt ∧ (m ((c : Thread nD τ).loc main_arg1) e).toInt < 50000) :
    G m c = layerOfArgs m c := by
  have e0 : (V m c (Pipeline.arrRef spec0 (0 : Fin cfg0.W)) : FVec Ideal S50000x64 .f32)
      = Entry.aggOf (Entry.rows (m ((c : Thread nD τ).loc main_arg0)) (m ((c : Thread nD τ).loc main_arg1)))
          (m ((c : Thread nD τ).loc main_arg2)) (m ((c : Thread nD τ).loc main_arg3)) := Entry.V_agg m c hs
  have e1 : (V m c (Pipeline.arrRef spec0 (1 : Fin cfg0.W)) : FVec Ideal S50000x64 .f32) = m ((c : Thread nD τ).loc main_arg0) :=
    V_main_arg0 m c
  have e2 : (V m c (Pipeline.arrRef spec0 (2 : Fin cfg0.W)) : FVec Ideal S64x64 .f32) = m ((c : Thread nD τ).loc main_arg4) :=
    V_main_arg4 m c
  have e3 : (V m c (Pipeline.arrRef spec0 (3 : Fin cfg0.W)) : FVec Ideal S1x64 .f32)
      = shapeCast S1x64 (m ((c : Thread nD τ).loc main_arg5)) shapeCasts_S64_S1x64 := Entry.V_bias m c
  have e4 : (V m c (Pipeline.arrRef spec0 (4 : Fin cfg0.W)) : FVec Ideal S64x64 .f32)
      = transpose S64x64 [1, 0] (m ((c : Thread nD τ).loc main_arg6)) transposes_S64x64_S64x64_1_0 := Entry.V_wsT m c
  unfold G layerOfArgs
  rw [e0, e1, e2, e3, e4]
  exact congrArg (fun bb : Fin 64 → EReal => Cert.GraphConv.layer _ _ _ bb _) (funext fun q => bias_entry _ q)

/-- Every weakly fair execution of the kernel program terminates with the output array at the layer of the arguments and
    the arguments unchanged. -/
theorem run
    (hs : ∀ (c : Dev nD) e, -50000 ≤ (m ((c : Thread nD τ).loc main_arg1) e).toInt ∧ (m ((c : Thread nD τ).loc main_arg1) e).toInt < 50000) :
    θ_run defs (onTc (τ := τ) (main (F := Ideal))) ⟨m, fun _ => 0, ρ⟩ fun r => ∀ c : Dev nD,
      r.2.mem ((c : Thread nD τ).loc main_v9) = layerOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (G_eq m c (hs c))), (h c).2⟩)
    (Cert.KernelIdeal.Value.run_blocks m ρ)

end Cert.KernelIdeal.Whole

end
-- ==== Proof.RefValue.lean ====
/-
  The reference's result is the layer.

  The reference computes agg @ W_neigh + b_neigh, then adds feat @ W_self.T, with agg the scatter-add of the gathered,
  weight-scaled rows and W_self.T an explicit transpose. Read at node r and feature c: each product is the sum over k of
  left (r, k) times right (k, c), the bias broadcast down the rows is b c — the layer of the aggregated array, the
  features, the neighbour weight, the bias and the transposed self weight, in the same grouping.
-/
import proofs.«418360_j29300266893372_3_alg».proof.Proof.Gen.ReferenceIdeal.Read
import proofs.«418360_j29300266893372_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

theorem result_eq (x0 : FVec Ideal S50000x64 .f32) (x1 x2 : IVec S800000 32) (x3 : FVec Ideal S800000 .f32)
    (x4 : FVec Ideal S64x64 .f32) (x5 : FVec Ideal S64 .f32) (x6 : FVec Ideal S64x64 .f32) :
    val_main_v19 (F := Ideal) x0 x1 x2 x3 x4 x5 x6
      = Cert.GraphConv.layer (val_main_v12 (F := Ideal) x0 x1 x2 x3) x0 x4 (fun q => x5 (ix1 q)) (val_main_v17 (F := Ideal) x6) := by
  funext i
  have hl : ∀ k, lidx_main_v13 i k = ix2 (i 0) k := fun k => funext fun a => Fin.ext (by
    match a with | ⟨0, _⟩ => rfl | ⟨1, _⟩ => rfl)
  have hr : ∀ k, ridx_main_v13 i k = ix2 k (i 1) := fun k => funext fun a => Fin.ext (by
    match a with | ⟨0, _⟩ => rfl | ⟨1, _⟩ => rfl)
  have hl' : ∀ k, lidx_main_v18 i k = ix2 (i 0) k := fun k => funext fun a => Fin.ext (by
    match a with | ⟨0, _⟩ => rfl | ⟨1, _⟩ => rfl)
  have hr' : ∀ k, ridx_main_v18 i k = ix2 k (i 1) := fun k => funext fun a => Fin.ext (by
    match a with | ⟨0, _⟩ => rfl | ⟨1, _⟩ => rfl)
  have hb : idx_main_v14 (idx_main_v15 i) = ix1 (i 1) := funext fun a => Fin.ext (by
    match a with | ⟨0, _⟩ => rfl)
  rw [val_main_v19_apply, val_main_v16_apply, val_main_v13_apply, val_main_v15_apply, val_main_v14_apply, val_main_v18_apply]
  simp only [hl, hr, hl', hr', hb]
  rfl

end Cert.ReferenceIdeal.RefValue

end
-- ==== Proof.PreRead.lean ====
/-
  The precondition, read at one edge: the source index of every edge lies in [-50000, 50000).

  The precondition is a conjunction of seven `jnp.all`s, the last two over the edge-source words: src ≥ -50000 and
  src < 50000, each compare reduced by `and` from true to a single bit. The conjunction being true makes each
  reduction true, a reduction to a single bit that is true had a true bit at every edge, and a true signed compare of
  words is the order of their signed values. (The finiteness conjuncts are not needed: the two programs differ in no
  arithmetic law, only in what a source index out of range would read.)
-/
import proofs.«418360_j29300266893372_3_alg».proof.Pre_finite_inputs
import proofs.«418360_j29300266893372_3_alg».proof.Proof.Words
import Idealize.ShloMosaic.Lib.ReduceAll
import Idealize.ShloMosaic.Lib.ValueIdx

namespace Cert.GraphConv.PreRead

open Idealize.ShloMosaic Cert.Pre_finite_inputs Cert.GraphConv.Words

variable [Cert.Pre_finite_inputs.Facts]

instance : Subsingleton S_.Idx := ⟨fun a b => funext fun d => d.elim0⟩

/-- Under the precondition every edge's source word, read signed, is in [-50000, 50000). -/
theorem src_range {F : FTy → Type} [FloatOps F] (a0 : FVec F S50000x64 .f32) (a1 a2 : IVec S800000 32) (a3 : FVec F S800000 .f32)
    (a4 : FVec F S64x64 .f32) (a5 : FVec F S64 .f32) (a6 : FVec F S64x64 .f32)
    (h : fn (F := F) a0 a1 a2 a3 a4 a5 a6 = fun _ => 1#1) (e : S800000.Idx) :
    -50000 ≤ (a1 e).toInt ∧ (a1 e).toInt < 50000 := by
  have h0 := congrFun h ValueIdx.ix0
  dsimp only [fn, fn_part1] at h0
  change IntOp.andi _ _ = 1#1 at h0
  obtain ⟨h1, hlt⟩ := IntOp.andi_eq_one.1 h0
  change IntOp.andi _ _ = 1#1 at h1
  obtain ⟨-, hge⟩ := IntOp.andi_eq_one.1 h1
  have hge' := Host.reduce_andi_all _ _ _ _ _ hge e
  have hlt' := Host.reduce_andi_all _ _ _ _ _ hlt e
  change IntOp.cmpi .sge (a1 e) (4294917296#32) = 1#1 at hge'
  change IntOp.cmpi .slt (a1 e) (50000#32) = 1#1 at hlt'
  have g := IntOp.cmpi_sge.1 hge'
  have l := IntOp.cmpi_slt.1 hlt'
  rw [toInt_neg50000] at g
  rw [toInt_50000] at l
  exact ⟨g, l⟩

end Cert.GraphConv.PreRead
-- ==== Proof.lean ====
/-
  A graph-convolution layer without normalisation, a Pallas kernel against its jnp reference, over the extended reals.

  Both programs gather a feature row per edge, scale it by the edge weight, add the rows into their destination nodes
  (agg), and return (agg · W_neigh + b) + feat · W_selfᵀ. The kernel does the dense part in one region over five blocks of
  ten thousand nodes, with its operands cast to bf16 (the identity here) and each product into a zero accumulator; the
  reference does it with two host products. Index by index both are the same sums in the same grouping, so no law of
  arithmetic is used, and finiteness of the inputs is never opened.

  The two differ only where a source index is out of range: the kernel's `jnp.take` fills such a row, the reference's
  indexing clamps. The precondition keeps every source index in [-50000, 50000), the range the reference's own indexing
  is defined on; there the kernel's in-range test is true at every edge and its gather is the reference's.

  frame_Kernel, frame_KernelIdeal: the generated frames. frame_ReferenceIdeal: the reference's generated run with the
  result dropped. preserves: the idealization rewrote nothing. algebraic: the kernel program's run with its output named
  as the layer of the arguments (Proof/KernelRun.lean) beside the reference's run read as the same layer
  (Proof/RefValue.lean), the aggregated arrays one term of the arguments.
-/
import proofs.«418360_j29300266893372_3_alg».proof.Defs
import proofs.«418360_j29300266893372_3_alg».proof.Proof.Gen.Kernel
import proofs.«418360_j29300266893372_3_alg».proof.Proof.Gen.Kernel.Skeleton
import proofs.«418360_j29300266893372_3_alg».proof.Proof.Gen.Kernel.Launch
import proofs.«418360_j29300266893372_3_alg».proof.Proof.Gen.Kernel.Points
import proofs.«418360_j29300266893372_3_alg».proof.Proof.Gen.Kernel.Frame
import proofs.«418360_j29300266893372_3_alg».proof.Proof.Gen.KernelIdeal
import proofs.«418360_j29300266893372_3_alg».proof.Proof.Gen.KernelIdeal.Skeleton
import proofs.«418360_j29300266893372_3_alg».proof.Proof.Gen.KernelIdeal.Launch
import proofs.«418360_j29300266893372_3_alg».proof.Proof.Gen.KernelIdeal.Points
import proofs.«418360_j29300266893372_3_alg».proof.Proof.Gen.KernelIdeal.Frame
import proofs.«418360_j29300266893372_3_alg».proof.Proof.Gen.ReferenceIdeal
import proofs.«418360_j29300266893372_3_alg».proof.Proof.Gen.Pre_finite_inputs
import proofs.«418360_j29300266893372_3_alg».proof.Proof.Gen.KernelIdeal.Value
import proofs.«418360_j29300266893372_3_alg».proof.Proof.Gen.ReferenceIdeal.Run
import proofs.«418360_j29300266893372_3_alg».proof.Proof.Gen.ReferenceIdeal.Read
import proofs.«418360_j29300266893372_3_alg».proof.Proof.KernelRun
import proofs.«418360_j29300266893372_3_alg».proof.Proof.RefValue
import proofs.«418360_j29300266893372_3_alg».proof.Proof.PreRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the arguments: the kernel's by its run, the reference's by its run read at an
    index, the arguments agreeing. -/
theorem algebraic : Cert.algebraic_KernelIdeal_ReferenceIdeal := by
  intro m ρ m' ρ' hpre hagree
  have hs : ∀ (c : Dev Cert.KernelIdeal.nD) e,
      -50000 ≤ (m ((c : Thread Cert.KernelIdeal.nD Cert.KernelIdeal.τ).loc Cert.KernelIdeal.main_arg1) e).toInt
        ∧ (m ((c : Thread Cert.KernelIdeal.nD Cert.KernelIdeal.τ).loc Cert.KernelIdeal.main_arg1) e).toInt < 50000 :=
    fun c e => Cert.GraphConv.PreRead.src_range _ _ _ _ _ _ _ (hpre c) e
  refine ⟨fun c => Cert.KernelIdeal.Whole.layerOfArgs m c, Cert.KernelIdeal.Whole.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq]
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
